-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x256x3 : Shape := ⟨3, ![8, 256, 3]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256, .f32⟩
  | .local _ .vmem, ⟨5, _⟩ => ⟨S8x256, .f32⟩
  | .local _ .vmem, ⟨6, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v29 : BitVec 32 := Scalar.muli arg1 c256_i32
  v29
def k0_off1 (i : grid0.Coords) : Fin 2 → Nat :=
  let c0_18 : Index := 0#32
  let arg1 : BitVec 32 := BitVec.ofNat 32 (i 1).val
  let c256_i32 : BitVec 32 := 256#32
  let v29 : BitVec 32 := Scalar.muli arg1 c256_i32
  let v30 : BitVec 32 := v29
  let v31 : Index := Scalar.indexCast v30
  ![0, v31.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x256x3_S8x256x3_0_0_0 : ∀ a, (![0, 0, 0] : Fin 3 → Nat) a + S8x256x3.size a ≤ S8x256x3.size a
  h_S8x256x3 : 0 < S8x256x3.numel
  reduces_S8x256x3_S8x256 : S8x256x3.Reduces [2] S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x4096_S8x4096_0_0 : ∀ a, (![0, 0] : Fin 2 → Nat) a + S8x4096.size a ≤ S8x4096.size a
  h_S8x4096 : 0 < S8x4096.numel
  reducesTo_S8x4096_S_d0_1 : S8x4096.ReducesTo [0, 1] S_
  h_S_ : 0 < S_.numel
  dot_S8x256x3_S8x256x3_S8x256x256_2_2_1_1_0_0_wf : DotDims.WF S8x256x3 S8x256x3 S8x256x256 [2] [2] [1] [1] [0] [0]
  hrank0 : 0 < grid0.rank
  k0_mult1_dvd : ∀ i : grid0.Coords, 128 ∣ (k0_mult1 i).toNat
  k0_off1_inb : ∀ i : grid0.Coords, ∀ a, (k0_off1 i) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x4096.size a
  hwx0_2 : ∀ i : grid0.Coords, EltTy.bits .f32 = 32 ∨ (Rect.block (s := S8x4096) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)

variable [Facts₀]

def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.CasesBits.lean ====
/-
  The two conditionals of the chamfer kernel's body, decided over the 16 x 16 grid.

  The body resets the row-minimum accumulator (output window 2) when the inner coordinate mi is 0, and the
  column-minimum accumulator (output window 3) at the first point only.  With the points numbered
  t = 16 * ni + mi, the first condition holds exactly when t % 16 = 0 and the second exactly when t = 0.
-/
import proofs.«118449_j68272800137445_1_alg».proof.Proof.Gen.Kernel.Frame
import proofs.«118449_j68272800137445_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first conditional (reset of the row minima): mi = 0. -/
abbrev cond0 (i : grid0.Coords) : Prop := (Scalar.cmpi .ne (Scalar.extui (Scalar.cmpi .eq (BitVec.ofNat 32 (i 1).val) 0#32)) 0#32) = 1#1
/-- It holds at the points that begin a row of the grid. -/
theorem hcond0 : ∀ t : Fin cfg0.N, cond0 (grid0.coords t) ↔ t.val % 16 = 0 :=
  (by decide +kernel : ∀ t : Fin grid0.N, cond0 (grid0.coords t) ↔ t.val % 16 = 0)

/-- The condition of the second conditional (reset of the column minima): ni = 0 and mi = 0. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg0.N, cond1 (grid0.coords t) ↔ t.val % 256 = 0 :=
  (by decide +kernel : ∀ t : Fin grid0.N, cond1 (grid0.coords t) ↔ t.val % 256 = 0)

/-- The two coordinates of point t: ni = t / 16 and mi = t % 16. -/
theorem coords0 : ∀ t : Fin cfg0.N, ((grid0.coords t) 0).val = t.val / 16 :=
  (by decide +kernel : ∀ t : Fin grid0.N, ((grid0.coords t) 0).val = t.val / 16)
theorem coords1 : ∀ t : Fin cfg0.N, ((grid0.coords t) 1).val = t.val % 16 :=
  (by decide +kernel : ∀ t : Fin grid0.N, ((grid0.coords t) 1).val = t.val % 16)

/-- The column offset of the slice of the column accumulator the body updates at a point: 256 * mi. -/
theorem off1_eq : ∀ t : Fin cfg0.N, k0_off1 (grid0.coords t) = ![0, 256 * (t.val % 16)] :=
  (by decide +kernel : ∀ t : Fin grid0.N, k0_off1 (grid0.coords t) = ![0, 256 * (t.val % 16)])

/-- Each window's current staging memref at a point, and that it is a whole buffer. -/
abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)

end Cert.Kernel.Hand

end
-- ==== Proof.StepBits.lean ====
/-
  What one grid point of the chamfer kernel leaves in its two accumulators, as pure functions of what it finds.

  At a point the body forms the 256 x 256 tile of expanded squared distances between the point's block of the first
  cloud and its block of the second (per batch), and
    * replaces the row accumulator (one 8 x 256 block) by its entrywise minimum with the tile's minima along the rows;
    * replaces, in the column accumulator (8 x 4096), the 256 columns of the point's slice by their entrywise minimum
      with the tile's minima along the columns, and leaves every other column as it was.
  A buffer after one store through a rectangle reads as the payload laid over what it read before.
-/
import proofs.«118449_j68272800137445_1_alg».proof.Proof.CasesBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer after a store through a rectangle reads as the payload overlaid on what it read before the store. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy]

/-- A buffer whose last store went through the whole shape reads as that store's payload. -/
theorem read_writes_whole_last {sig' : RefSig} {κ : Kind} {sp : Space} {s : Shape} {e : EltTy} {Val : EltTy → Type}
    (v : View sig' κ sp s e) (f : v.ty.Contents Val) {off : Fin s.rank → Nat} (hz : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst hz; funext y
  have e := View.read_writes_cons_emb v f (Rect.whole s) w L y
  rw [Rect.emb_whole_apply] at e
  exact e

/-- The rectangle of the column accumulator the body updates at a grid point: all 8 rows, the 256 columns from 256 * mi. -/
abbrev slice5 (i : grid0.Coords) : Rect S8x4096 := Rect.unit (k0_off1 i) S8x256.size (k0_off1_inb i)

/-- The row accumulator after the point: its entrywise minimum with the row minima of the tile. -/
def new4 (x0 x1 : Vec F S8x256x3 .f32) (base : Vec F S8x256 .f32) : Vec F S8x256 .f32 := k0_pay5 x0 x1 base

/-- The column accumulator after the point: on the point's slice its entrywise minimum with the column minima of the tile,
    elsewhere unchanged. -/
def new5 (i : grid0.Coords) (x0 x1 : Vec F S8x256x3 .f32) (base : Vec F S8x4096 .f32) : Vec F S8x4096 .f32 :=
  (slice5 i).overlay base (k0_pay1 (k0_pay3 x0 x1) (View.ld base (slice5 i)))

end Cert.Kernel.Hand

end
-- ==== Proof.RunsBits.lean ====
/-
  The body of the chamfer kernel run at one grid point, in each of the three cases of its two conditionals.

  On whole staging buffers holding the point's two input blocks x0, x1 and the accumulators' contents, the body runs to
  the end with the inputs as they were, the row accumulator at new4 and the column accumulator at new5 of what they
  started from: the reset value where the point resets them (whatever they held), their contents otherwise.
  Each buffer is left as a list of stores over its prior contents; a store through the whole buffer reads back as its
  payload, a store through the column slice as its payload laid over the rest.
-/
import proofs.«118449_j68272800137445_1_alg».proof.Proof.StepBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- No reset (mi ≠ 0): both accumulators carried. -/
theorem runB (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : ¬cond0 i) (hc1 : ¬cond1 i)
    (x0 : Vec F S8x256x3 .f32) (x1 : Vec F S8x256x3 .f32) (xo4 : Vec F S8x256 .f32) (xo5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare xo4 ∗ owns (c : Thread nD τ) arg5 fullShare xo5
            ∗ (iprop(owns (c : Thread nD τ) arg2 fullShare x0 ∗ owns (c : Thread nD τ) arg3 fullShare x1 ∗ owns (c : Thread nD τ) arg4 fullShare (new4 x0 x1 xo4) ∗ owns (c : Thread nD τ) arg5 fullShare (new5 i x0 x1 xo5)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, harg4.read_unread, View.ld_unit_zero (S := S8x256x3) hz3, View.ld_unit_zero (S := S8x256) hz2]
    iexists _; isplitr; swap; · iexact H3
    ipureintro
    sl_unfold_run_names
    rw [read_writes_cons_overlay, View.writes_nil, harg5.read_unread]
    unfold new5 slice5
    simp only [View.readAt_eq_ld, harg2.read_unread, harg3.read_unread, harg5.read_unread, View.ld_unit_zero (S := S8x256x3) hz3]

set_option maxHeartbeats 1000000 in
/-- Reset of the row accumulator only (mi = 0, ni ≠ 0): the row accumulator starts from the reset value whatever it held, the
    column accumulator is carried. -/
theorem runC (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : cond0 i) (hc1 : ¬cond1 i)
    (x0 : Vec F S8x256x3 .f32) (x1 : Vec F S8x256x3 .f32) (d4 : Vec F S8x256 .f32) (xo5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare xo5
            ∗ (iprop(owns (c : Thread nD τ) arg2 fullShare x0 ∗ owns (c : Thread nD τ) arg3 fullShare x1 ∗ owns (c : Thread nD τ) arg4 fullShare (new4 x0 x1 k0_pay4) ∗ owns (c : Thread nD τ) arg5 fullShare (new5 i x0 x1 xo5)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, View.ld_unit_zero (S := S8x256x3) hz3, View.readCov_unit_zero (S := S8x256) _ hz2]
    iexists _; isplitr; swap; · iexact H3
    ipureintro
    sl_unfold_run_names
    rw [read_writes_cons_overlay, View.writes_nil, harg5.read_unread]
    unfold new5 slice5
    simp only [View.readAt_eq_ld, harg2.read_unread, harg3.read_unread, harg5.read_unread, View.ld_unit_zero (S := S8x256x3) hz3]

set_option maxHeartbeats 1000000 in
/-- The first point (ni = 0 and mi = 0): both accumulators start from the reset value whatever they held. -/
theorem runA (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : cond0 i) (hc1 : cond1 i)
    (x0 : Vec F S8x256x3 .f32) (x1 : Vec F S8x256x3 .f32) (d4 : Vec F S8x256 .f32) (d5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5
            ∗ (iprop(owns (c : Thread nD τ) arg2 fullShare x0 ∗ owns (c : Thread nD τ) arg3 fullShare x1 ∗ owns (c : Thread nD τ) arg4 fullShare (new4 x0 x1 k0_pay4) ∗ owns (c : Thread nD τ) arg5 fullShare (new5 i x0 x1 k0_pay6)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, View.ld_unit_zero (S := S8x256x3) hz3, View.readCov_unit_zero (S := S8x256) _ hz2]
    iexists _; isplitr; swap; · iexact H3
    ipureintro
    sl_unfold_run_names
    rw [read_writes_cons_overlay, read_writes_whole_last _ _ hz2]
    unfold new5 slice5
    simp only [View.readAt_eq_ld, harg2.read_unread, harg3.read_unread, View.ld_unit_zero (S := S8x256x3) hz3]
    rw [read_writes_whole_last _ _ hz2]

end Cert.Kernel.Hand

end
-- ==== Proof.AccBits.lean ====
/-
  The two accumulators of the chamfer kernel, point by point.

  The points of the 16 x 16 grid run in the order t = 16 * ni + mi.  The row accumulator is reset where mi = 0 (the
  first conditional of the body) and otherwise carried from the point before; the column accumulator is reset at the
  first point only and otherwise carried.  What the two hold after point t is defined by recursion on t from the one-point
  functions new4 and new5.
-/
import proofs.«118449_j68272800137445_1_alg».proof.Proof.StepBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The block of the first cloud the point reads (rows 256 * ni onwards), at its literal type. -/
abbrev blk0 (c : Dev nD) (t : Fin cfg0.N) : Vec F S8x256x3 .f32 := iblk m c 0 t
/-- The block of the second cloud the point reads (rows 256 * mi onwards), at its literal type. -/
abbrev blk1 (c : Dev nD) (t : Fin cfg0.N) : Vec F S8x256x3 .f32 := iblk m c 1 t

/-- What the row accumulator and the column accumulator hold after the body at position n. -/
def outsAt (c : Dev nD) : (n : ℕ) → n < cfg0.N → Vec F S8x256 .f32 × Vec F S8x4096 .f32
  | 0, hn => (new4 (blk0 m c ⟨0, hn⟩) (blk1 m c ⟨0, hn⟩) k0_pay4,
      new5 (grid0.coords ⟨0, hn⟩) (blk0 m c ⟨0, hn⟩) (blk1 m c ⟨0, hn⟩) k0_pay6)
  | n + 1, hn =>
    if _h0 : (n + 1) % 16 = 0 then
      (new4 (blk0 m c ⟨n + 1, hn⟩) (blk1 m c ⟨n + 1, hn⟩) k0_pay4,
        new5 (grid0.coords ⟨n + 1, hn⟩) (blk0 m c ⟨n + 1, hn⟩) (blk1 m c ⟨n + 1, hn⟩) (outsAt c n (Nat.lt_of_succ_lt hn)).2)
    else
      (new4 (blk0 m c ⟨n + 1, hn⟩) (blk1 m c ⟨n + 1, hn⟩) (outsAt c n (Nat.lt_of_succ_lt hn)).1,
        new5 (grid0.coords ⟨n + 1, hn⟩) (blk0 m c ⟨n + 1, hn⟩) (blk1 m c ⟨n + 1, hn⟩) (outsAt c n (Nat.lt_of_succ_lt hn)).2)

/-- At the first point both accumulators start from the reset value. -/
theorem outsAt_first (c : Dev nD) (t : Fin cfg0.N) (h : t.val = 0) :
    outsAt m c t.val t.isLt = (new4 (blk0 m c t) (blk1 m c t) k0_pay4, new5 (grid0.coords t) (blk0 m c t) (blk1 m c t) k0_pay6) := by
  obtain ⟨n, hn⟩ := t
  cases n with
  | zero => rfl
  | succ n => exact absurd h (Nat.succ_ne_zero n)

/-- At a later point that begins a row of the grid the row accumulator starts from the reset value, the column accumulator
    from what the point before left. -/
theorem outsAt_rowStart (c : Dev nD) (t : Fin cfg0.N) (h0 : t.val % 16 = 0) (h : t.val ≠ 0) :
    outsAt m c t.val t.isLt = (new4 (blk0 m c t) (blk1 m c t) k0_pay4,
      new5 (grid0.coords t) (blk0 m c t) (blk1 m c t) (outsAt m c (t.val - 1) (Nat.lt_of_le_of_lt (Nat.sub_le _ _) t.isLt)).2) := by
  obtain ⟨n, hn⟩ := t
  cases n with
  | zero => exact absurd rfl h
  | succ n => exact (dif_pos h0).trans rfl

/-- At every other point both start from what the point before left. -/
theorem outsAt_inner (c : Dev nD) (t : Fin cfg0.N) (h0 : ¬t.val % 16 = 0) :
    outsAt m c t.val t.isLt = (new4 (blk0 m c t) (blk1 m c t) (outsAt m c (t.val - 1) (Nat.lt_of_le_of_lt (Nat.sub_le _ _) t.isLt)).1,
      new5 (grid0.coords t) (blk0 m c t) (blk1 m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

end Cert.Kernel.Hand

end
-- ==== Proof.BodyBits.lean ====
/-
  The frame of the chamfer kernel's program: the proof data of its one pipeline, the body at every point, the run.

  The proof data name what every window's staging buffer holds after the body at each point: the two inputs their blocks, the
  row accumulator and the column accumulator what the recursion outsAt says.  Before the body at a point an input buffer holds
  its block; the row accumulator's buffer holds what the point before left unless the point begins a grid row (then the body
  resets it, so anything will do); the column accumulator's buffer holds what the point before left unless the point is the
  first (the body resets it there).  The three cases of the body's two conditionals are told apart by t % 16 and t % 256.
-/
import proofs.«118449_j68272800137445_1_alg».proof.Proof.RunsBits
import proofs.«118449_j68272800137445_1_alg».proof.Proof.AccBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- An input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Within a grid row the row accumulator's buffer holds what the point before left: it is written back only after the
    row's last point. -/
theorem before2 (c : Dev nD) (t : Fin cfg0.N) (h0 : ¬t.val % 16 = 0) (d) :
    (dats m 0 c).before 2 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- After the first point the column accumulator's buffer holds what the point before left: it is written back only after
    the last point. -/
theorem before3 (c : Dev nD) (t : Fin cfg0.N) (h1 : ¬t.val % 256 = 0) (d) :
    (dats m 0 c).before 3 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 16 = 0
  · by_cases h1 : t.val % 256 = 0
    · rw [outsAt_first m c t (by omega)]
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_rowStart m c t h0 (by omega)]
      simp only [before3 m c t h1]
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 256 = 0 := by omega
    rw [outsAt_inner m c t h0]
    simp only [before2 m c t h0, before3 m c t h1]
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h1 ((hcond1 t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, with every array of the pipeline at what the proof data say and
    every other buffer at what the host operations after the region compute from those. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Cases.lean ====
/-
  The two conditionals of the chamfer kernel's body, decided over the 16 x 16 grid.

  The body resets the row-minimum accumulator (output window 2) when the inner coordinate mi is 0, and the
  column-minimum accumulator (output window 3) at the first point only.  With the points numbered
  t = 16 * ni + mi, the first condition holds exactly when t % 16 = 0 and the second exactly when t = 0.
-/
import proofs.«118449_j68272800137445_1_alg».proof.Proof.Gen.KernelIdeal.Frame
import proofs.«118449_j68272800137445_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first conditional (reset of the row minima): mi = 0. -/
abbrev cond0 (i : grid0.Coords) : Prop := (Scalar.cmpi .ne (Scalar.extui (Scalar.cmpi .eq (BitVec.ofNat 32 (i 1).val) 0#32)) 0#32) = 1#1
/-- It holds at the points that begin a row of the grid. -/
theorem hcond0 : ∀ t : Fin cfg0.N, cond0 (grid0.coords t) ↔ t.val % 16 = 0 :=
  (by decide +kernel : ∀ t : Fin grid0.N, cond0 (grid0.coords t) ↔ t.val % 16 = 0)

/-- The condition of the second conditional (reset of the column minima): ni = 0 and mi = 0. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg0.N, cond1 (grid0.coords t) ↔ t.val % 256 = 0 :=
  (by decide +kernel : ∀ t : Fin grid0.N, cond1 (grid0.coords t) ↔ t.val % 256 = 0)

/-- The two coordinates of point t: ni = t / 16 and mi = t % 16. -/
theorem coords0 : ∀ t : Fin cfg0.N, ((grid0.coords t) 0).val = t.val / 16 :=
  (by decide +kernel : ∀ t : Fin grid0.N, ((grid0.coords t) 0).val = t.val / 16)
theorem coords1 : ∀ t : Fin cfg0.N, ((grid0.coords t) 1).val = t.val % 16 :=
  (by decide +kernel : ∀ t : Fin grid0.N, ((grid0.coords t) 1).val = t.val % 16)

/-- The column offset of the slice of the column accumulator the body updates at a point: 256 * mi. -/
theorem off1_eq : ∀ t : Fin cfg0.N, k0_off1 (grid0.coords t) = ![0, 256 * (t.val % 16)] :=
  (by decide +kernel : ∀ t : Fin grid0.N, k0_off1 (grid0.coords t) = ![0, 256 * (t.val % 16)])

/-- Each window's current staging memref at a point, and that it is a whole buffer. -/
abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)

end Cert.KernelIdeal.Hand

end
-- ==== Proof.Step.lean ====
/-
  What one grid point of the chamfer kernel leaves in its two accumulators, as pure functions of what it finds.

  At a point the body forms the 256 x 256 tile of expanded squared distances between the point's block of the first
  cloud and its block of the second (per batch), and
    * replaces the row accumulator (one 8 x 256 block) by its entrywise minimum with the tile's minima along the rows;
    * replaces, in the column accumulator (8 x 4096), the 256 columns of the point's slice by their entrywise minimum
      with the tile's minima along the columns, and leaves every other column as it was.
  A buffer after one store through a rectangle reads as the payload laid over what it read before.
-/
import proofs.«118449_j68272800137445_1_alg».proof.Proof.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer after a store through a rectangle reads as the payload overlaid on what it read before the store. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy]

/-- A buffer whose last store went through the whole shape reads as that store's payload. -/
theorem read_writes_whole_last {sig' : RefSig} {κ : Kind} {sp : Space} {s : Shape} {e : EltTy} {Val : EltTy → Type}
    (v : View sig' κ sp s e) (f : v.ty.Contents Val) {off : Fin s.rank → Nat} (hz : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst hz; funext y
  have e := View.read_writes_cons_emb v f (Rect.whole s) w L y
  rw [Rect.emb_whole_apply] at e
  exact e

/-- The rectangle of the column accumulator the body updates at a grid point: all 8 rows, the 256 columns from 256 * mi. -/
abbrev slice5 (i : grid0.Coords) : Rect S8x4096 := Rect.unit (k0_off1 i) S8x256.size (k0_off1_inb i)

/-- The row accumulator after the point: its entrywise minimum with the row minima of the tile. -/
def new4 (x0 x1 : Vec F S8x256x3 .f32) (base : Vec F S8x256 .f32) : Vec F S8x256 .f32 := k0_pay5 x0 x1 base

/-- The column accumulator after the point: on the point's slice its entrywise minimum with the column minima of the tile,
    elsewhere unchanged. -/
def new5 (i : grid0.Coords) (x0 x1 : Vec F S8x256x3 .f32) (base : Vec F S8x4096 .f32) : Vec F S8x4096 .f32 :=
  (slice5 i).overlay base (k0_pay1 (k0_pay3 x0 x1) (View.ld base (slice5 i)))

end Cert.KernelIdeal.Hand

end
-- ==== Proof.Runs.lean ====
/-
  The body of the chamfer kernel run at one grid point, in each of the three cases of its two conditionals.

  On whole staging buffers holding the point's two input blocks x0, x1 and the accumulators' contents, the body runs to
  the end with the inputs as they were, the row accumulator at new4 and the column accumulator at new5 of what they
  started from: the reset value where the point resets them (whatever they held), their contents otherwise.
  Each buffer is left as a list of stores over its prior contents; a store through the whole buffer reads back as its
  payload, a store through the column slice as its payload laid over the rest.
-/
import proofs.«118449_j68272800137445_1_alg».proof.Proof.Step
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- No reset (mi ≠ 0): both accumulators carried. -/
theorem runB (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : ¬cond0 i) (hc1 : ¬cond1 i)
    (x0 : Vec F S8x256x3 .f32) (x1 : Vec F S8x256x3 .f32) (xo4 : Vec F S8x256 .f32) (xo5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare xo4 ∗ owns (c : Thread nD τ) arg5 fullShare xo5
            ∗ (iprop(owns (c : Thread nD τ) arg2 fullShare x0 ∗ owns (c : Thread nD τ) arg3 fullShare x1 ∗ owns (c : Thread nD τ) arg4 fullShare (new4 x0 x1 xo4) ∗ owns (c : Thread nD τ) arg5 fullShare (new5 i x0 x1 xo5)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, harg4.read_unread, View.ld_unit_zero (S := S8x256x3) hz3, View.ld_unit_zero (S := S8x256) hz2]
    iexists _; isplitr; swap; · iexact H3
    ipureintro
    sl_unfold_run_names
    rw [read_writes_cons_overlay, View.writes_nil, harg5.read_unread]
    unfold new5 slice5
    simp only [View.readAt_eq_ld, harg2.read_unread, harg3.read_unread, harg5.read_unread, View.ld_unit_zero (S := S8x256x3) hz3]

set_option maxHeartbeats 1000000 in
/-- Reset of the row accumulator only (mi = 0, ni ≠ 0): the row accumulator starts from the reset value whatever it held, the
    column accumulator is carried. -/
theorem runC (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : cond0 i) (hc1 : ¬cond1 i)
    (x0 : Vec F S8x256x3 .f32) (x1 : Vec F S8x256x3 .f32) (d4 : Vec F S8x256 .f32) (xo5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare xo5
            ∗ (iprop(owns (c : Thread nD τ) arg2 fullShare x0 ∗ owns (c : Thread nD τ) arg3 fullShare x1 ∗ owns (c : Thread nD τ) arg4 fullShare (new4 x0 x1 k0_pay4) ∗ owns (c : Thread nD τ) arg5 fullShare (new5 i x0 x1 xo5)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, View.ld_unit_zero (S := S8x256x3) hz3, View.readCov_unit_zero (S := S8x256) _ hz2]
    iexists _; isplitr; swap; · iexact H3
    ipureintro
    sl_unfold_run_names
    rw [read_writes_cons_overlay, View.writes_nil, harg5.read_unread]
    unfold new5 slice5
    simp only [View.readAt_eq_ld, harg2.read_unread, harg3.read_unread, harg5.read_unread, View.ld_unit_zero (S := S8x256x3) hz3]

set_option maxHeartbeats 1000000 in
/-- The first point (ni = 0 and mi = 0): both accumulators start from the reset value whatever they held. -/
theorem runA (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (hc0 : cond0 i) (hc1 : cond1 i)
    (x0 : Vec F S8x256x3 .f32) (x1 : Vec F S8x256x3 .f32) (d4 : Vec F S8x256 .f32) (d5 : Vec F S8x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare d4 ∗ owns (c : Thread nD τ) arg5 fullShare d5
            ∗ (iprop(owns (c : Thread nD τ) arg2 fullShare x0 ∗ owns (c : Thread nD τ) arg3 fullShare x1 ∗ owns (c : Thread nD τ) arg4 fullShare (new4 x0 x1 k0_pay4) ∗ owns (c : Thread nD τ) arg5 fullShare (new5 i x0 x1 k0_pay6)) -∗ K ⟨⟩))
          ⊢ wp frame (wpE (defs₀ (F := F)) Variants.none c none) E (cc0__chamfer_kernel i arg2 harg2 arg3 harg3 arg4 harg4 arg5 harg5) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      sl_unfold_run_names
      rw [read_writes_whole_last _ _ hz2]
      unfold new4
      simp only [View.readAt_eq_ld, harg2.read_unread, harg3.read_unread, View.ld_unit_zero (S := S8x256x3) hz3, View.readCov_unit_zero (S := S8x256) _ hz2]
    iexists _; isplitr; swap; · iexact H3
    ipureintro
    sl_unfold_run_names
    rw [read_writes_cons_overlay, read_writes_whole_last _ _ hz2]
    unfold new5 slice5
    simp only [View.readAt_eq_ld, harg2.read_unread, harg3.read_unread, View.ld_unit_zero (S := S8x256x3) hz3]
    rw [read_writes_whole_last _ _ hz2]

end Cert.KernelIdeal.Hand

end
-- ==== Proof.Acc.lean ====
/-
  The two accumulators of the chamfer kernel, point by point.

  The points of the 16 x 16 grid run in the order t = 16 * ni + mi.  The row accumulator is reset where mi = 0 (the
  first conditional of the body) and otherwise carried from the point before; the column accumulator is reset at the
  first point only and otherwise carried.  What the two hold after point t is defined by recursion on t from the one-point
  functions new4 and new5.
-/
import proofs.«118449_j68272800137445_1_alg».proof.Proof.Step

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The block of the first cloud the point reads (rows 256 * ni onwards), at its literal type. -/
abbrev blk0 (c : Dev nD) (t : Fin cfg0.N) : Vec F S8x256x3 .f32 := iblk m c 0 t
/-- The block of the second cloud the point reads (rows 256 * mi onwards), at its literal type. -/
abbrev blk1 (c : Dev nD) (t : Fin cfg0.N) : Vec F S8x256x3 .f32 := iblk m c 1 t

/-- What the row accumulator and the column accumulator hold after the body at position n. -/
def outsAt (c : Dev nD) : (n : ℕ) → n < cfg0.N → Vec F S8x256 .f32 × Vec F S8x4096 .f32
  | 0, hn => (new4 (blk0 m c ⟨0, hn⟩) (blk1 m c ⟨0, hn⟩) k0_pay4,
      new5 (grid0.coords ⟨0, hn⟩) (blk0 m c ⟨0, hn⟩) (blk1 m c ⟨0, hn⟩) k0_pay6)
  | n + 1, hn =>
    if _h0 : (n + 1) % 16 = 0 then
      (new4 (blk0 m c ⟨n + 1, hn⟩) (blk1 m c ⟨n + 1, hn⟩) k0_pay4,
        new5 (grid0.coords ⟨n + 1, hn⟩) (blk0 m c ⟨n + 1, hn⟩) (blk1 m c ⟨n + 1, hn⟩) (outsAt c n (Nat.lt_of_succ_lt hn)).2)
    else
      (new4 (blk0 m c ⟨n + 1, hn⟩) (blk1 m c ⟨n + 1, hn⟩) (outsAt c n (Nat.lt_of_succ_lt hn)).1,
        new5 (grid0.coords ⟨n + 1, hn⟩) (blk0 m c ⟨n + 1, hn⟩) (blk1 m c ⟨n + 1, hn⟩) (outsAt c n (Nat.lt_of_succ_lt hn)).2)

/-- At the first point both accumulators start from the reset value. -/
theorem outsAt_first (c : Dev nD) (t : Fin cfg0.N) (h : t.val = 0) :
    outsAt m c t.val t.isLt = (new4 (blk0 m c t) (blk1 m c t) k0_pay4, new5 (grid0.coords t) (blk0 m c t) (blk1 m c t) k0_pay6) := by
  obtain ⟨n, hn⟩ := t
  cases n with
  | zero => rfl
  | succ n => exact absurd h (Nat.succ_ne_zero n)

/-- At a later point that begins a row of the grid the row accumulator starts from the reset value, the column accumulator
    from what the point before left. -/
theorem outsAt_rowStart (c : Dev nD) (t : Fin cfg0.N) (h0 : t.val % 16 = 0) (h : t.val ≠ 0) :
    outsAt m c t.val t.isLt = (new4 (blk0 m c t) (blk1 m c t) k0_pay4,
      new5 (grid0.coords t) (blk0 m c t) (blk1 m c t) (outsAt m c (t.val - 1) (Nat.lt_of_le_of_lt (Nat.sub_le _ _) t.isLt)).2) := by
  obtain ⟨n, hn⟩ := t
  cases n with
  | zero => exact absurd rfl h
  | succ n => exact (dif_pos h0).trans rfl

/-- At every other point both start from what the point before left. -/
theorem outsAt_inner (c : Dev nD) (t : Fin cfg0.N) (h0 : ¬t.val % 16 = 0) :
    outsAt m c t.val t.isLt = (new4 (blk0 m c t) (blk1 m c t) (outsAt m c (t.val - 1) (Nat.lt_of_le_of_lt (Nat.sub_le _ _) t.isLt)).1,
      new5 (grid0.coords t) (blk0 m c t) (blk1 m c t) (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

end Cert.KernelIdeal.Hand

end
-- ==== Proof.Body.lean ====
/-
  The frame of the chamfer kernel's program: the proof data of its one pipeline, the body at every point, the run.

  The proof data name what every window's staging buffer holds after the body at each point: the two inputs their blocks, the
  row accumulator and the column accumulator what the recursion outsAt says.  Before the body at a point an input buffer holds
  its block; the row accumulator's buffer holds what the point before left unless the point begins a grid row (then the body
  resets it, so anything will do); the column accumulator's buffer holds what the point before left unless the point is the
  first (the body resets it there).  The three cases of the body's two conditionals are told apart by t % 16 and t % 256.
-/
import proofs.«118449_j68272800137445_1_alg».proof.Proof.Runs
import proofs.«118449_j68272800137445_1_alg».proof.Proof.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- An input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Within a grid row the row accumulator's buffer holds what the point before left: it is written back only after the
    row's last point. -/
theorem before2 (c : Dev nD) (t : Fin cfg0.N) (h0 : ¬t.val % 16 = 0) (d) :
    (dats m 0 c).before 2 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- After the first point the column accumulator's buffer holds what the point before left: it is written back only after
    the last point. -/
theorem before3 (c : Dev nD) (t : Fin cfg0.N) (h1 : ¬t.val % 256 = 0) (d) :
    (dats m 0 c).before 3 t d = (outsAt m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 16 = 0
  · by_cases h1 : t.val % 256 = 0
    · rw [outsAt_first m c t (by omega)]
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_rowStart m c t h0 (by omega)]
      simp only [before3 m c t h1]
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _ _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 256 = 0 := by omega
    rw [outsAt_inner m c t h0]
    simp only [before2 m c t h0, before3 m c t h1]
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h1 ((hcond1 t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, with every array of the pipeline at what the proof data say and
    every other buffer at what the host operations after the region compute from those. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The mathematics of the chamfer distance over the extended reals.

  For two clouds p, q of 4096 points in three coordinates, in each of 8 batches, the squared distance between
  point n of p and point m of q is expanded as |p_n|^2 + |q_m|^2 - 2 <p_n, q_m>.  The two programs take the
  minimum of this over m for every n, and over n for every m; one of them all at once, the other tile by tile,
  carrying the running minimum.  A minimum over a family is carried here by its universal property: v is the
  minimum of the bound and of the f i with P i when x ≤ v holds exactly for the x below the bound and below every
  such f i.  Two values with the property are equal, the minimum of two such values has the property for the
  union of the two families, and a fold of min over a whole finite type has it for the whole family.
-/
import Idealize.ShloMosaic.PureOps.Ideal
import Idealize.ShloMosaic.Lib.ValueIdx
import Mathlib.Data.Finset.Fold
import Mathlib.Data.EReal.Basic

noncomputable section

namespace Cert.Chamfer

open Idealize.ShloMosaic Idealize.ShloMosaic.ValueIdx

/-- A cloud: 8 batches of 4096 points of 3 coordinates, as extended reals. -/
abbrev Cloud : Type := (⟨3, ![8, 4096, 3]⟩ : Shape).Idx → EReal

/-- The accumulators' starting value, as both programs write it (the word of +∞). -/
def bound : EReal := Ideal.ofBits .f32 0x7F800000#32
/-- The factor of the cross term, as both programs write it (the word of 2). -/
def two : EReal := Ideal.ofBits .f32 0x40000000#32

/-- The expanded squared distance between point n of p and point m of q in batch b. -/
def dist (p q : Cloud) (b : Fin 8) (n m : Fin 4096) : EReal :=
  ((∑ d : Fin 3, p (ix3 b n d) * p (ix3 b n d)) + ∑ d : Fin 3, q (ix3 b m d) * q (ix3 b m d))
    - two * ∑ d : Fin 3, p (ix3 b n d) * q (ix3 b m d)

/-- v is the minimum of the bound and of the f i with P i. -/
def MinOver {ι : Type} (P : ι → Prop) (f : ι → EReal) (v : EReal) : Prop :=
  ∀ x : EReal, x ≤ v ↔ x ≤ bound ∧ ∀ i, P i → x ≤ f i

theorem MinOver.unique {ι : Type} {P : ι → Prop} {f : ι → EReal} {v w : EReal} (hv : MinOver P f v) (hw : MinOver P f w) :
    v = w :=
  le_antisymm ((hw v).mpr ((hv v).mp le_rfl)) ((hv w).mpr ((hw w).mp le_rfl))

/-- The family may be described by any equivalent predicate. -/
theorem MinOver.congr {ι : Type} {P Q : ι → Prop} {f : ι → EReal} {v : EReal} (hv : MinOver P f v) (h : ∀ i, P i ↔ Q i) :
    MinOver Q f v := fun x => (hv x).trans (and_congr_right fun _ => forall_congr' fun i => by rw [h i])

/-- Over the empty family the minimum is the bound. -/
theorem MinOver.empty {ι : Type} {P : ι → Prop} (f : ι → EReal) (h : ∀ i, ¬P i) : MinOver P f bound :=
  fun x => ⟨fun hx => ⟨hx, fun i hi => absurd hi (h i)⟩, fun hx => hx.1⟩

/-- The minimum of two minima is the minimum over the union. -/
theorem MinOver.union {ι : Type} {P Q : ι → Prop} {f : ι → EReal} {v w : EReal} (hv : MinOver P f v) (hw : MinOver Q f w) :
    MinOver (fun i => P i ∨ Q i) f (min v w) := fun x => by
  rw [le_min_iff, hv x, hw x]
  exact ⟨fun ⟨⟨hb, hp⟩, ⟨_, hq⟩⟩ => ⟨hb, fun i hi => hi.elim (hp i) (hq i)⟩,
    fun ⟨hb, h⟩ => ⟨⟨hb, fun i hi => h i (.inl hi)⟩, ⟨hb, fun i hi => h i (.inr hi)⟩⟩⟩

/-- The minimum with the bound changes nothing. -/
theorem MinOver.with_bound {ι : Type} {P : ι → Prop} {f : ι → EReal} {v : EReal} (hv : MinOver P f v) :
    MinOver P f (min bound v) := fun x => by
  rw [le_min_iff, hv x]
  exact ⟨fun h => h.2, fun h => ⟨h.1, h⟩⟩

/-- A fold of min from the bound over a whole finite type is the minimum over the type. -/
theorem MinOver.fold {κ : Type} [Fintype κ] (g : κ → EReal) :
    MinOver (fun _ : κ => True) g ((Finset.univ : Finset κ).fold min bound g) := fun x => by
  rw [Finset.le_fold_min]
  exact and_congr_right fun _ => ⟨fun h i _ => h i (Finset.mem_univ i), fun h i _ => h i trivial⟩

/-- A minimum over a family g = f ∘ e is a minimum over the image family. -/
theorem MinOver.map {ι κ : Type} {g : κ → EReal} {f : ι → EReal} {v : EReal} (e : κ → ι) (Q : ι → Prop)
    (hv : MinOver (fun _ : κ => True) g v) (hg : ∀ k, g k = f (e k)) (hQ : ∀ i, Q i ↔ ∃ k, e k = i) :
    MinOver Q f v := fun x => by
  rw [hv x]
  refine and_congr_right fun _ => ⟨fun h i hi => ?_, fun h k _ => ?_⟩
  · obtain ⟨k, rfl⟩ := (hQ i).mp hi
    rw [← hg]; exact h k trivial
  · rw [hg]; exact h (e k) ((hQ _).mpr ⟨k, rfl⟩)

end Cert.Chamfer

end
-- ==== Proof.RefValue.lean ====
/-
  The reference program read entry by entry over the extended reals.

  The reference forms all 4096 x 4096 expanded squared distances per batch at once, takes their minima along each axis from the
  bound, and then averages and combines the two arrays of minima.  The averaging and combining is the same chain of host
  operations in both programs, so it is kept as one function of the two arrays of minima and never opened.
-/
import proofs.«118449_j68272800137445_1_alg».proof.Proof.Gen.ReferenceIdeal.Read
import proofs.«118449_j68272800137445_1_alg».proof.Proof.Spec
import Idealize.ShloMosaic.PureOps.Reduce
import Idealize.ShloMosaic.PureOps.Ideal.Laws
import Idealize.ShloMosaic.Lib.ValueIdx

set_option maxRecDepth 16384

noncomputable section

namespace Cert.Chamfer

open Cert.ReferenceIdeal Cert.ReferenceIdeal.Gen Cert.ReferenceIdeal.Read
open Idealize.ShloMosaic Idealize.ShloMosaic.TcCoe Idealize.ShloMosaic.ValueIdx Idealize.SL.Sem

/-- The chain both programs apply to the two arrays of minima: each array's mean (its sum over all 8 * 4096 entries divided by
    32768), each times one, their sum, divided by eight. -/
def tail (X Y : FVec Ideal S8x4096 .f32) : FVec Ideal S_ .f32 :=
  Host.divf (F := Ideal) (addf (F := Ideal) (mulf (F := Ideal) (constant (F := Ideal) S_ .f32 0x3F800000#32) (Host.divf (F := Ideal) (Host.reduceAdd (F := Ideal) X (constant (F := Ideal) S_ .f32 0x00000000#32) reducesTo_S8x4096_S_d0_1 h_S_) (constant (F := Ideal) S_ .f32 0x47000000#32)))
      (mulf (F := Ideal) (constant (F := Ideal) S_ .f32 0x3F800000#32) (Host.divf (F := Ideal) (Host.reduceAdd (F := Ideal) Y (constant (F := Ideal) S_ .f32 0x00000000#32) reducesTo_S8x4096_S_d0_1 h_S_) (constant (F := Ideal) S_ .f32 0x47000000#32))))
    (constant (F := Ideal) S_ .f32 0x41000000#32)

/-- The reference's result is that chain of its two arrays of minima. -/
theorem ref_result (x0 x1 : (⟨S8x4096x3, .f32⟩ : BufTy).Contents (Elt Ideal)) :
    val_main_v22 (F := Ideal) x0 x1 = tail (val_main_v13 (F := Ideal) x0 x1) (val_main_v14 (F := Ideal) x0 x1) := by
  unfold val_main_v22 val_main_v21 val_main_v20 val_main_v19 val_main_v18 val_main_v17 val_main_v16 val_main_v15
    val_main_cst_10 val_main_cst_9 val_main_cst_8 val_main_cst_7 val_main_cst_6 val_main_cst_5 val_main_cst_4 tail
  rfl

/-- Read at (b, n, j), the first cloud's squared norms sit at (b, n, k). -/
private theorem idx_p (b : Fin 8) (n j : Fin 4096) (k : Fin 3) :
    idx_main_v1 (idx_main_v5 (idx_main_v7 (ix3 b n j))) k = ix3 b n k := by
  funext a; apply Fin.ext
  match a with | ⟨0, _⟩ => rfl | ⟨1, _⟩ => rfl | ⟨2, _⟩ => rfl

/-- Read at (b, n, j), the second cloud's squared norms sit at (b, j, k). -/
private theorem idx_q (b : Fin 8) (n j : Fin 4096) (k : Fin 3) :
    idx_main_v3 (idx_main_v6 (idx_main_v8 (ix3 b n j))) k = ix3 b j k := by
  funext a; apply Fin.ext
  match a with | ⟨0, _⟩ => rfl | ⟨1, _⟩ => rfl | ⟨2, _⟩ => rfl

/-- The cross term at (b, n, j) reads the first cloud at (b, n, k) … -/
private theorem idx_l (b : Fin 8) (n j : Fin 4096) (k : Fin 3) :
    lidx_main_v4 (ix3 b n j) k = ix3 b n k := by
  funext a; apply Fin.ext
  match a with | ⟨0, _⟩ => rfl | ⟨1, _⟩ => rfl | ⟨2, _⟩ => rfl

/-- … and the second cloud at (b, j, k). -/
private theorem idx_r (b : Fin 8) (n j : Fin 4096) (k : Fin 3) :
    ridx_main_v4 (ix3 b n j) k = ix3 b j k := by
  funext a; apply Fin.ext
  match a with | ⟨0, _⟩ => rfl | ⟨1, _⟩ => rfl | ⟨2, _⟩ => rfl

/-- The array of all expanded squared distances, at (b, n, j), is the distance between point n of the first cloud and
    point j of the second in batch b: both sums of squares start from zero, and the factor of the cross term is the
    word of 2. -/
private theorem v12_at (x0 x1 : (⟨S8x4096x3, .f32⟩ : BufTy).Contents (Elt Ideal)) (b : Fin 8) (n j : Fin 4096) :
    val_main_v12 (F := Ideal) x0 x1 (ix3 b n j) = dist x0 x1 b n j := by
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_1_apply, val_main_cst_apply, val_main_cst_0_apply]
  simp only [val_main_v0_apply, val_main_v2_apply, idx_p, idx_q, idx_l, idx_r, Ideal.mulf_def, Ideal.addf_def,
    Ideal.subf_def, Ideal.ofBits_def, Ideal.ofBits_zero_f32, zero_add]
  rfl

/-- The reduced index (b, n) with coordinate j put back on the last axis is (b, n, j). -/
private theorem lift_d2 (h : S8x4096x4096.Reduces [2] S8x4096) (b : Fin 8) (n : Fin 4096) (j : Fin 4096) :
    h.lift (ix2 b n) j = ix3 b n j := by
  funext c; apply Fin.ext
  match c with | ⟨0, _⟩ => rfl | ⟨1, _⟩ => rfl | ⟨2, _⟩ => rfl

/-- The reduced index (b, j) with coordinate i put back on the middle axis is (b, i, j). -/
private theorem lift_d1 (h : S8x4096x4096.Reduces [1] S8x4096) (b : Fin 8) (j : Fin 4096) (i : Fin 4096) :
    h.lift (ix2 b j) i = ix3 b i j := by
  funext c; apply Fin.ext
  match c with | ⟨0, _⟩ => rfl | ⟨1, _⟩ => rfl | ⟨2, _⟩ => rfl

/-- The reference's first array of minima: at (b, n) the minimum over the whole second cloud. -/
theorem ref_min1 (x0 x1 : (⟨S8x4096x3, .f32⟩ : BufTy).Contents (Elt Ideal)) (b : Fin 8) (n : Fin 4096) :
    MinOver (fun _ : Fin 4096 => True) (fun j => dist x0 x1 b n j) (val_main_v13 (F := Ideal) x0 x1 (ix2 b n)) := by
  have h : S8x4096x4096.Reduces [2] S8x4096 := by decide
  have hf : (val_main_v12 (F := Ideal) x0 x1 ∘ h.lift (ix2 b n)) = fun j : Fin 4096 => dist x0 x1 b n j :=
    funext fun j => (congrArg (val_main_v12 (F := Ideal) x0 x1) (lift_d2 h b n j)).trans (v12_at x0 x1 b n j)
  have key : val_main_v13 (F := Ideal) x0 x1 (ix2 b n)
      = (Finset.univ : Finset (Fin 4096)).fold min bound (fun j => dist x0 x1 b n j) := by
    unfold val_main_v13
    refine (Host.reduce_eq_fold_single (FloatOps.minimumf (F := Ideal) (φ := .f32)) (val_main_v12 (F := Ideal) x0 x1)
      (val_main_cst_2 (F := Ideal)) reducesTo_S8x4096x4096_S8x4096_d2 h h_S_ (ix2 b n)).trans ?_
    rw [hf]
    rfl
  rw [key]
  exact MinOver.fold (fun j : Fin 4096 => dist x0 x1 b n j)

/-- The reference's second array of minima: at (b, j) the minimum over the whole first cloud. -/
theorem ref_min2 (x0 x1 : (⟨S8x4096x3, .f32⟩ : BufTy).Contents (Elt Ideal)) (b : Fin 8) (j : Fin 4096) :
    MinOver (fun _ : Fin 4096 => True) (fun i => dist x0 x1 b i j) (val_main_v14 (F := Ideal) x0 x1 (ix2 b j)) := by
  have h : S8x4096x4096.Reduces [1] S8x4096 := by decide
  have hf : (val_main_v12 (F := Ideal) x0 x1 ∘ h.lift (ix2 b j)) = fun i : Fin 4096 => dist x0 x1 b i j :=
    funext fun i => (congrArg (val_main_v12 (F := Ideal) x0 x1) (lift_d1 h b j i)).trans (v12_at x0 x1 b i j)
  have key : val_main_v14 (F := Ideal) x0 x1 (ix2 b j)
      = (Finset.univ : Finset (Fin 4096)).fold min bound (fun i => dist x0 x1 b i j) := by
    unfold val_main_v14
    refine (Host.reduce_eq_fold_single (FloatOps.minimumf (F := Ideal) (φ := .f32)) (val_main_v12 (F := Ideal) x0 x1)
      (val_main_cst_3 (F := Ideal)) reducesTo_S8x4096x4096_S8x4096_d1 h h_S_ (ix2 b j)).trans ?_
    rw [hf]
    rfl
  rw [key]
  exact MinOver.fold (fun i : Fin 4096 => dist x0 x1 b i j)

end Cert.Chamfer

end
-- ==== Proof.KernelValue.lean ====
/-
  The kernel program's result as a function of its two result arrays.

  After the region the program averages each of the two arrays of minima, combines the averages and divides by eight: the same
  chain of host operations the reference ends with.  The run of the program therefore ends with its result at that chain of
  the two arrays the pipeline leaves, and with the two clouds unchanged.
-/
import proofs.«118449_j68272800137445_1_alg».proof.Proof.Body
import proofs.«118449_j68272800137445_1_alg».proof.Proof.RefValue
import Idealize.ShloMosaic.Lib.StableHlo.Run

set_option maxRecDepth 16384

noncomputable section

namespace Cert.Chamfer

open Cert.KernelIdeal Cert.KernelIdeal.Gen Cert.KernelIdeal.Hand
open Idealize.ShloMosaic Idealize.ShloMosaic.TcCoe Idealize.ShloMosaic.ValueIdx Idealize.SL.Sem

open Idealize.ShloMosaic.StableHlo

variable (m : (ℓ : Loc nD τ sig) → Buf (Elt Ideal) ℓ) (ρ : Dev nD → PrngReg)

/-- The result buffer after the host operations that follow the region is the shared chain of the two arrays of minima. -/
theorem tail_eq (c : Dev nD) :
    Pipeline.afterTail₀ cfgs (dats m) 0 (V0 m) [hostOps1] c main_v8
      = tail ((dats m 0 c).arrAt 2 cfg0.N) ((dats m 0 c).arrAt 3 cfg0.N) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v0_0)
        = (dats m 0 c).arrAt 2 cfg0.N from Pipeline.withArrays_arr spec0 launch0.win.arr_inj c _ _ 2,
    show Pipeline.withArrays (cfgs 0).spec c (V0 m c) (fun w => (dats m 0 c).arrAt w (cfgs 0).N) (Proc.tc.devRef main_v0_1)
        = (dats m 0 c).arrAt 3 cfg0.N from Pipeline.withArrays_arr spec0 launch0.win.arr_inj c _ _ 3]
  rfl

/-- The result buffer is none of the pipeline's arrays and is not scoped: the run's post speaks of it. -/
theorem v8_rest : main_v8 ∈ Pipeline.restRefs sig (cfgs 0).spec :=
  Pipeline.mem_restRefs_of main_v8 rfl (by decide)

/-- Every weakly fair execution of the kernel's program terminates with its result at the shared chain of the two arrays the
    pipeline leaves, and with the two clouds unchanged. -/
theorem kernel_run : θ_run defs (onTc (τ := τ) (main (F := Ideal))) ⟨m, fun _ => 0, ρ⟩ (fun r => ∀ c : Dev nD,
      r.2.mem ((c.tc : Thread nD τ).loc main_v8) = tail ((dats m 0 c).arrAt 2 cfg0.N) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v8 v8_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Chamfer

end
-- ==== Proof.Pay.lean ====
/-
  The kernel's arithmetic at one grid point, read entry by entry over the extended reals.

  For the point's two blocks x0 (256 points of the first cloud per batch) and x1 (256 points of the second) the body forms
  the 256 x 256 tile whose entry (r, s) is |x0_r|^2 + |x1_s|^2 - 2 <x0_r, x1_s>, takes its minima along both axes from the
  bound, and merges them into the accumulators by entrywise minimum.
-/
import proofs.«118449_j68272800137445_1_alg».proof.Proof.Step
import proofs.«118449_j68272800137445_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Chamfer

open Cert.KernelIdeal Cert.KernelIdeal.Gen Cert.KernelIdeal.Hand
open Idealize.ShloMosaic Idealize.ShloMosaic.TcCoe Idealize.ShloMosaic.ValueIdx Idealize.SL.Sem

/-- Entry (r, s) of the tile of expanded squared distances of batch b between the two blocks. -/
def tile (x0 x1 : Vec Ideal S8x256x3 .f32) (b : Fin 8) (r s : Fin 256) : EReal :=
  ((∑ d : Fin 3, x0 (ix3 b r d) * x0 (ix3 b r d)) + ∑ d : Fin 3, x1 (ix3 b s d) * x1 (ix3 b s d))
    - two * ∑ d : Fin 3, x0 (ix3 b r d) * x1 (ix3 b s d)

/-- The sum of the squares of the three coordinates of point r of batch b: the lane sum over the last axis, read at (b, r). -/
private theorem sumsq_apply (x : Vec Ideal S8x256x3 .f32) (b : Fin 8) (r : Fin 256) :
    multiReduction (F := Ideal) .add [2] S8x256 (mulf x x) 0x00000000#32 reduces_S8x256x3_S8x256 (.inl rfl) rfl (ix2 b r)
      = (∑ d : Fin 3, x (ix3 b r d) * x (ix3 b r d) : EReal) := by
  refine (Ideal.multiReduction_add_single (mulf x x) 0x00000000#32 reduces_S8x256x3_S8x256 (.inl rfl) rfl (ix2 b r)).trans ?_
  refine Finset.sum_congr rfl fun d _ => ?_
  have e : reduces_S8x256x3_S8x256.lift (ix2 b r) d = ix3 b r d := funext fun a => Fin.ext (by
    match a with | ⟨0, _⟩ => rfl | ⟨1, _⟩ => rfl | ⟨2, _⟩ => rfl)
  rw [e]; rfl

/-- A vector over (b, r) viewed as (b, r, 1) and repeated along the last axis reads, at (b, r, s), its entry (b, r). -/
private theorem row_apply {α : Type} (v : S8x256.Idx → α) (b : Fin 8) (r s : Fin 256) :
    broadcastTo S8x256x256 (shapeCast S8x256x1 v shapeCasts_S8x256_S8x256x1) broadcasts_S8x256x1_S8x256x256 (ix3 b r s)
      = v (ix2 b r) := by
  refine (broadcastTo_apply _ broadcasts_S8x256x1_S8x256x256 (ix3 b r s) (ix3 b r (0 : Fin 1)) (fun a => ?_)).trans ?_
  · match a with
    | ⟨0, _⟩ => show b.val = if (8 : Nat) = 1 then 0 else b.val; rw [if_neg (by decide)]
    | ⟨1, _⟩ => show r.val = if (256 : Nat) = 1 then 0 else r.val; rw [if_neg (by decide)]
    | ⟨2, _⟩ => show 0 = if (1 : Nat) = 1 then 0 else s.val; rw [if_pos rfl]
  · refine shapeCast_apply v shapeCasts_S8x256_S8x256x1 (ix3 b r (0 : Fin 1)) (ix2 b r) ?_
    rw [Shape.rowMajor_val_two, Shape.rowMajor_val_three]
    show b.val * 256 + r.val = (b.val * 256 + r.val) * 1 + 0
    omega

/-- A vector over (b, s) viewed as (b, 1, s) and repeated along the middle axis reads, at (b, r, s), its entry (b, s). -/
private theorem col_apply {α : Type} (v : S8x256.Idx → α) (b : Fin 8) (r s : Fin 256) :
    broadcastTo S8x256x256 (shapeCast S8x1x256 v shapeCasts_S8x256_S8x1x256) broadcasts_S8x1x256_S8x256x256 (ix3 b r s)
      = v (ix2 b s) := by
  refine (broadcastTo_apply _ broadcasts_S8x1x256_S8x256x256 (ix3 b r s) (ix3 b (0 : Fin 1) s) (fun a => ?_)).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show s.val = if (256 : Nat) = 1 then 0 else s.val; rw [if_neg (by decide)]
  · refine shapeCast_apply v shapeCasts_S8x256_S8x1x256 (ix3 b (0 : Fin 1) s) (ix2 b s) ?_
    rw [Shape.rowMajor_val_two, Shape.rowMajor_val_three]
    show b.val * 256 + s.val = (b.val * 1 + 0) * 256 + s.val
    omega

/-- The dimension numbers of the tile's product: batch axis 0 of both blocks, the three coordinates contracted, the points
    of the first block along the rows and of the second along the columns. -/
private abbrev dd : DotDims S8x256x3 S8x256x3 S8x256x256 := dot_S8x256x3_S8x256x3_S8x256x256_2_2_1_1_0_0

/-- At tile entry i and contraction coordinate q the product reads the first block at (i 0, i 1, q) … -/
private theorem dd_lhs0 (i : S8x256x256.Idx) (q : dd.contr.Idx) : (dd.lhsIdx i q 0).val = (i 0).val := by
  unfold DotDims.lhsIdx
  rw [dif_pos (show (0 : Fin S8x256x3.rank) ∈ dd.lhsBatch by decide)]
  rfl
private theorem dd_lhs1 (i : S8x256x256.Idx) (q : dd.contr.Idx) : (dd.lhsIdx i q 1).val = (i 1).val := by
  unfold DotDims.lhsIdx
  rw [dif_neg (show ¬(1 : Fin S8x256x3.rank) ∈ dd.lhsBatch by decide),
    dif_pos (show (1 : Fin S8x256x3.rank) ∈ dd.lhsNonContracting by decide)]
  rfl
private theorem dd_lhs2 (i : S8x256x256.Idx) (q : dd.contr.Idx) : (dd.lhsIdx i q 2).val = (q ⟨0, by decide⟩).val :=
  dd.lhsIdx_val_of_single rfl i q
/-- … and the second block at (i 0, i 2, q). -/
private theorem dd_rhs0 (i : S8x256x256.Idx) (q : dd.contr.Idx) : (dd.rhsIdx i q 0).val = (i 0).val := by
  unfold DotDims.rhsIdx
  rw [dif_pos (show (0 : Fin S8x256x3.rank) ∈ dd.rhsBatch by decide)]
  rfl
private theorem dd_rhs1 (i : S8x256x256.Idx) (q : dd.contr.Idx) : (dd.rhsIdx i q 1).val = (i 2).val := by
  unfold DotDims.rhsIdx
  rw [dif_neg (show ¬(1 : Fin S8x256x3.rank) ∈ dd.rhsBatch by decide),
    dif_pos (show (1 : Fin S8x256x3.rank) ∈ dd.rhsNonContracting by decide)]
  rfl
private theorem dd_rhs2 (i : S8x256x256.Idx) (q : dd.contr.Idx) : (dd.rhsIdx i q 2).val = (q ⟨0, by decide⟩).val :=
  dd.rhsIdx_val_of_single rfl i q

/-- The product of the two blocks into the zero tile, read at (b, r, s): the inner product of point r of the first block
    and point s of the second. -/
private theorem cross_apply (x0 x1 : Vec Ideal S8x256x3 .f32) (b : Fin 8) (r s : Fin 256) :
    matmul (F := Ideal) (φ₁ := .f32) (φ₂ := .f32) dot_S8x256x3_S8x256x3_S8x256x256_2_2_1_1_0_0 none x0 x1
        (constant S8x256x256 .f32 0x00000000#32) (ix3 b r s)
      = (∑ d : Fin 3, x0 (ix3 b r d) * x1 (ix3 b s d) : EReal) := by
  refine (Ideal.matmul_constant_zero_apply dd none x0 x1 (ix3 b r s)).trans ?_
  rw [← Equiv.sum_comp (contrEquiv1 dd 3 rfl rfl).symm]
  refine Finset.sum_congr rfl fun k _ => ?_
  have hk := contrEquiv1_symm_val dd 3 rfl rfl k
  have el : dd.lhsIdx (ix3 b r s) ((contrEquiv1 dd 3 rfl rfl).symm k) = ix3 b r k := funext fun a => Fin.ext (by
    match a with
    | ⟨0, _⟩ => exact dd_lhs0 _ _
    | ⟨1, _⟩ => exact dd_lhs1 _ _
    | ⟨2, _⟩ => exact (dd_lhs2 _ _).trans hk)
  have er : dd.rhsIdx (ix3 b r s) ((contrEquiv1 dd 3 rfl rfl).symm k) = ix3 b s k := funext fun a => Fin.ext (by
    match a with
    | ⟨0, _⟩ => exact dd_rhs0 _ _
    | ⟨1, _⟩ => exact dd_rhs1 _ _
    | ⟨2, _⟩ => exact (dd_rhs2 _ _).trans hk)
  rw [el, er]

/-- The body's tile is that tile. -/
theorem pay2_apply (x0 x1 : Vec Ideal S8x256x3 .f32) (b : Fin 8) (r s : Fin 256) :
    k0_pay2 (F := Ideal) x0 x1 (ix3 b r s) = tile x0 x1 b r s := by
  unfold k0_pay2 tile
  refine congrArg₂ (· - ·) (congrArg₂ (· + ·) ?_ ?_) (congrArg₂ (· * ·) ?_ ?_)
  · exact (row_apply _ b r s).trans (sumsq_apply x0 b r)
  · exact (col_apply _ b r s).trans (sumsq_apply x1 b s)
  · rfl
  · exact cross_apply x0 x1 b r s

/-- The reset value of the row accumulator is the bound at every entry. -/
theorem pay4_apply (y : S8x256.Idx) : k0_pay4 (F := Ideal) y = bound := by
  rfl

/-- The reset value of the column accumulator is the bound at every entry. -/
theorem pay6_apply (y : S8x4096.Idx) : k0_pay6 (F := Ideal) y = bound := by
  rfl

/-- The minimum of a tile along its last axis, from the bound, read at (b, r): the fold of min over row r. -/
private theorem min_axis2 (T : FVec Ideal S8x256x256 .f32) (b : Fin 8) (r : Fin 256) :
    multiReduction (F := Ideal) .minimumf [2] S8x256 T 0x7F800000#32 reduces_S8x256x256_S8x256 (.inl rfl) rfl (ix2 b r)
      = (Finset.univ : Finset (Fin 256)).fold min bound fun s => T (ix3 b r s) := by
  refine (multiReduction_minimumf_eq_fold T _ reduces_S8x256x256_S8x256 (.inl rfl) rfl (ix2 b r)).trans ?_
  refine (reduces_S8x256x256_S8x256.fold_filter_drop_single _ _ T (ix2 b r)).trans ?_
  show (Finset.univ : Finset (Fin 256)).fold min bound (T ∘ reduces_S8x256x256_S8x256.lift (ix2 b r)) = _
  refine Finset.fold_congr fun s _ => ?_
  exact congrArg T (funext fun a => Fin.ext (by match a with | ⟨0, _⟩ => rfl | ⟨1, _⟩ => rfl | ⟨2, _⟩ => rfl))

/-- The minimum of a tile along its middle axis, from the bound, read at (b, s): the fold of min over column s. -/
private theorem min_axis1 (T : FVec Ideal S8x256x256 .f32) (b : Fin 8) (s : Fin 256) :
    multiReduction (F := Ideal) .minimumf [1] S8x256 T 0x7F800000#32 reduces_S8x256x256_S8x256_2 (.inl rfl) rfl (ix2 b s)
      = (Finset.univ : Finset (Fin 256)).fold min bound fun r => T (ix3 b r s) := by
  refine (multiReduction_minimumf_eq_fold T _ reduces_S8x256x256_S8x256_2 (.inl rfl) rfl (ix2 b s)).trans ?_
  refine (reduces_S8x256x256_S8x256_2.fold_filter_drop_single _ _ T (ix2 b s)).trans ?_
  show (Finset.univ : Finset (Fin 256)).fold min bound (T ∘ reduces_S8x256x256_S8x256_2.lift (ix2 b s)) = _
  refine Finset.fold_congr fun r _ => ?_
  exact congrArg T (funext fun a => Fin.ext (by match a with | ⟨0, _⟩ => rfl | ⟨1, _⟩ => rfl | ⟨2, _⟩ => rfl))

/-- The row accumulator after a point: its entry (b, r) joined by minimum to the minimum of row r of the tile. -/
theorem new4_apply (x0 x1 : Vec Ideal S8x256x3 .f32) (base : Vec Ideal S8x256 .f32) (b : Fin 8) (r : Fin 256) :
    new4 (F := Ideal) x0 x1 base (ix2 b r)
      = min (base (ix2 b r)) ((Finset.univ : Finset (Fin 256)).fold min bound fun s => tile x0 x1 b r s) := by
  unfold new4 k0_pay5
  refine congrArg₂ min ?_ ?_
  · exact congrFun (shapeCast_self base _) (ix2 b r)
  · exact (min_axis2 _ b r).trans (Finset.fold_congr fun s _ => pay2_apply x0 x1 b r s)

/-- The column accumulator after point t, at a column j = 256 * mi + s of the point's slice: its entry joined by minimum to
    the minimum of column s of the tile. -/
theorem new5_apply_in (t : Fin cfg0.N) (x0 x1 : Vec Ideal S8x256x3 .f32) (base : Vec Ideal S8x4096 .f32) (b : Fin 8)
    (s : Fin 256) (j : Fin 4096) (hj : j.val = 256 * (t.val % 16) + s.val) :
    new5 (F := Ideal) (grid0.coords t) x0 x1 base (ix2 b j)
      = min (base (ix2 b j)) ((Finset.univ : Finset (Fin 256)).fold min bound fun r => tile x0 x1 b r s) := by
  have e : ix2 b j = (slice5 (grid0.coords t)).emb (ix2 b s) := funext fun a => Fin.ext (by
    rw [Rect.emb_apply]
    show _ = k0_off1 (grid0.coords t) a + 1 * _
    rw [off1_eq t]
    match a with
    | ⟨0, _⟩ => show b.val = 0 + 1 * b.val; omega
    | ⟨1, _⟩ => show j.val = 256 * (t.val % 16) + 1 * s.val; omega)
  unfold new5
  rw [e, Rect.overlay_emb]
  unfold k0_pay1 k0_pay3
  refine congrArg₂ min ?_ ?_
  · exact congrFun (shapeCast_self (View.ld base (slice5 (grid0.coords t))) _) (ix2 b s)
  · exact (min_axis1 _ b s).trans (Finset.fold_congr fun r _ => pay2_apply x0 x1 b r s)

/-- At a column outside the point's slice the column accumulator is unchanged. -/
theorem new5_apply_out (t : Fin cfg0.N) (x0 x1 : Vec Ideal S8x256x3 .f32) (base : Vec Ideal S8x4096 .f32) (b : Fin 8)
    (j : Fin 4096) (hj : j.val < 256 * (t.val % 16) ∨ 256 * (t.val % 16) + 256 ≤ j.val) :
    new5 (F := Ideal) (grid0.coords t) x0 x1 base (ix2 b j) = base (ix2 b j) := by
  unfold new5
  refine Rect.overlay_of_not_mem _ _ _ (fun hm => ?_)
  have h1 := (Rect.mem_set_unit.mp hm) 1
  rw [off1_eq t] at h1
  change 256 * (t.val % 16) ≤ j.val ∧ j.val < 256 * (t.val % 16) + 256 at h1
  omega

end Cert.Chamfer

end
-- ==== Proof.Blocks.lean ====
/-
  The blocks the kernel reads at a point are pieces of the two clouds: at point t = 16 * ni + mi the first input block is
  rows 256 * ni .. 256 * ni + 255 of the first cloud and the second input block rows 256 * mi .. 256 * mi + 255 of the second,
  every batch and all three coordinates.  So the tile of the point is the 256 x 256 piece of the expanded squared distances
  at those rows and columns.
-/
import proofs.«118449_j68272800137445_1_alg».proof.Proof.Acc
import proofs.«118449_j68272800137445_1_alg».proof.Proof.Pay

set_option maxRecDepth 16384

noncomputable section

namespace Cert.Chamfer

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The first cloud as the region finds it. -/
abbrev cloud0 (c : Dev nD) : Cloud := V m c main_arg0
/-- The second cloud as the region finds it. -/
abbrev cloud1 (c : Dev nD) : Cloud := V m c main_arg1

/-- The block index of the first input window at point t, axis by axis: 0, t / 16, 0. -/
private theorem idx0 : ∀ t : Fin cfg0.N, win0_0.index t (0 : Fin 3) = 0 ∧ win0_0.index t (1 : Fin 3) = t.val / 16
    ∧ win0_0.index t (2 : Fin 3) = 0 :=
  (by decide +kernel : ∀ t : Fin grid0.N, _)

/-- The block index of the second input window at point t, axis by axis: 0, t % 16, 0. -/
private theorem idx1 : ∀ t : Fin cfg0.N, win0_1.index t (0 : Fin 3) = 0 ∧ win0_1.index t (1 : Fin 3) = t.val % 16
    ∧ win0_1.index t (2 : Fin 3) = 0 :=
  (by decide +kernel : ∀ t : Fin grid0.N, _)

/-- Row r of the first block at point t is row 256 * (t / 16) + r of the first cloud. -/
theorem blk0_apply (c : Dev nD) (t : Fin cfg0.N) (b : Fin 8) (r : Fin 256) (d : Fin 3) (n : Fin 4096)
    (hn : n.val = 256 * (t.val / 16) + r.val) :
    blk0 m c t (ix3 b r d) = cloud0 m c (ix3 b n d) := by
  obtain ⟨e0, e1, e2⟩ := idx0 t
  -- the block reads the array at the block's element: on each axis, block index times block size plus the coordinate
  show V m c main_arg0 (((cfg0.win 0).blk t).view.emb (ix3 b r d)) = V m c main_arg0 (ix3 b n d)
  refine congrArg _ ?_
  funext a; apply Fin.ext
  match a with
  | ⟨0, _⟩ => show win0_0.index t (0 : Fin 3) * 8 + 1 * b.val = b.val; omega
  | ⟨1, _⟩ => show win0_0.index t (1 : Fin 3) * 256 + 1 * r.val = n.val; omega
  | ⟨2, _⟩ => show win0_0.index t (2 : Fin 3) * 3 + 1 * d.val = d.val; omega

/-- Row s of the second block at point t is row 256 * (t % 16) + s of the second cloud. -/
theorem blk1_apply (c : Dev nD) (t : Fin cfg0.N) (b : Fin 8) (s : Fin 256) (d : Fin 3) (j : Fin 4096)
    (hj : j.val = 256 * (t.val % 16) + s.val) :
    blk1 m c t (ix3 b s d) = cloud1 m c (ix3 b j d) := by
  obtain ⟨e0, e1, e2⟩ := idx1 t
  show V m c main_arg1 (((cfg0.win 1).blk t).view.emb (ix3 b s d)) = V m c main_arg1 (ix3 b j d)
  refine congrArg _ ?_
  funext a; apply Fin.ext
  match a with
  | ⟨0, _⟩ => show win0_1.index t (0 : Fin 3) * 8 + 1 * b.val = b.val; omega
  | ⟨1, _⟩ => show win0_1.index t (1 : Fin 3) * 256 + 1 * s.val = j.val; omega
  | ⟨2, _⟩ => show win0_1.index t (2 : Fin 3) * 3 + 1 * d.val = d.val; omega

/-- The tile of point t is the piece of the expanded squared distances at its rows and columns. -/
theorem tile_blk (c : Dev nD) (t : Fin cfg0.N) (b : Fin 8) (r s : Fin 256) (n j : Fin 4096)
    (hn : n.val = 256 * (t.val / 16) + r.val) (hj : j.val = 256 * (t.val % 16) + s.val) :
    tile (blk0 m c t) (blk1 m c t) b r s = dist (cloud0 m c) (cloud1 m c) b n j := by
  unfold tile dist
  simp only [blk0_apply m c t b r _ n hn, blk1_apply m c t b s _ j hj]

end Cert.Chamfer

end
-- ==== Proof.Final.lean ====
/-
  The two result arrays of the kernel's pipeline after the run.

  The row accumulator's block is written back to rows 256 * ni .. 256 * ni + 255 of the first result array after the last
  point of each grid row, and the column accumulator's block, the whole second result array, after the last point.  The
  written-back blocks cover both arrays, and every written-back entry is a minimum over a whole cloud; so every entry of
  the arrays after the run is.
-/
import proofs.«118449_j68272800137445_1_alg».proof.Proof.Body
import proofs.«118449_j68272800137445_1_alg».proof.Proof.Blocks

set_option maxRecDepth 16384

noncomputable section

namespace Cert.Chamfer

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The block index of the first result window at point t, axis by axis: 0, t / 16. -/
private theorem idx2 : ∀ t : Fin cfg0.N, win0_2.index t (0 : Fin 2) = 0 ∧ win0_2.index t (1 : Fin 2) = t.val / 16 :=
  (by decide +kernel : ∀ t : Fin grid0.N, _)

/-- The block index of the second result window at every point: 0, 0. -/
private theorem idx3 : ∀ t : Fin cfg0.N, win0_3.index t (0 : Fin 2) = 0 ∧ win0_3.index t (1 : Fin 2) = 0 :=
  (by decide +kernel : ∀ t : Fin grid0.N, _)

/-- What an entry of the first result array should be: at index i = (b, n) the minimum over the whole second cloud of the
    distances from point n of the first. -/
private def RowMin (c : Dev nD) (i : S8x4096.Idx) (v : EReal) : Prop :=
  MinOver (fun _ : Fin 4096 => True)
    (fun j => dist (cloud0 m c) (cloud1 m c) ⟨(i 0).val, (i 0).isLt⟩ ⟨(i 1).val, (i 1).isLt⟩ j) v

/-- The property at an index whose coordinates are b and n. -/
private theorem RowMin_of (c : Dev nD) (i : S8x4096.Idx) (v : EReal) (b : Fin 8) (n : Fin 4096)
    (h0 : (i 0).val = b.val) (h1 : (i 1).val = n.val)
    (h : MinOver (fun _ : Fin 4096 => True) (fun j => dist (cloud0 m c) (cloud1 m c) b n j) v) : RowMin m c i v := by
  obtain ⟨p, q, rfl⟩ : ∃ p q, i = ix2 p q := ⟨i 0, i 1, eq_ix2 i⟩
  obtain rfl : p = b := Fin.ext h0
  obtain rfl : q = n := Fin.ext h1
  exact h

/-- What an entry of the second result array should be: at index i = (b, j) the minimum over the whole first cloud of the
    distances to point j of the second. -/
private def ColMin (c : Dev nD) (i : S8x4096.Idx) (v : EReal) : Prop :=
  MinOver (fun _ : Fin 4096 => True)
    (fun n => dist (cloud0 m c) (cloud1 m c) ⟨(i 0).val, (i 0).isLt⟩ n ⟨(i 1).val, (i 1).isLt⟩) v

/-- The property at an index whose coordinates are b and j. -/
private theorem ColMin_of (c : Dev nD) (i : S8x4096.Idx) (v : EReal) (b : Fin 8) (j : Fin 4096)
    (h0 : (i 0).val = b.val) (h1 : (i 1).val = j.val)
    (h : MinOver (fun _ : Fin 4096 => True) (fun n => dist (cloud0 m c) (cloud1 m c) b n j) v) : ColMin m c i v := by
  obtain ⟨p, q, rfl⟩ : ∃ p q, i = ix2 p q := ⟨i 0, i 1, eq_ix2 i⟩
  obtain rfl : p = b := Fin.ext h0
  obtain rfl : q = j := Fin.ext h1
  exact h

/-- The first result array after the run: at (b, n) the minimum over the whole second cloud of the expanded squared distances
    from point n of the first. -/
theorem final2 (c : Dev nD)
    (hrow : ∀ (t : Fin cfg0.N), t.val % 16 = 15 → ∀ (b : Fin 8) (r : Fin 256) (i : Fin 4096), i.val = 256 * (t.val / 16) + r.val →
      MinOver (fun _ : Fin 4096 => True) (fun j => dist (cloud0 m c) (cloud1 m c) b i j) ((outsAt m c t.val t.isLt).1 (ix2 b r)))
    (b : Fin 8) (n : Fin 4096) :
    MinOver (fun _ : Fin 4096 => True) (fun j => dist (cloud0 m c) (cloud1 m c) b n j)
      ((dats m 0 c).arrAt 2 cfg0.N (ix2 b n)) := by
  have h := (dats m 0 c).arrAt_forall_of_cover 2 (RowMin m c) ?hP ?hcover (ix2 b n)
  · exact h
  case hP =>
    -- every entry written back after the last point of a grid row has the property
    intro t hf y
    have ht := (flush0_2 t).mp hf
    have hN : t.val < 256 := lt_of_lt_of_eq t.isLt (show cfg0.N = 256 from N_0)
    obtain ⟨e0, e1⟩ := idx2 t
    have hy0 : (y 0).val < 8 := (y 0).isLt
    have hy1 : (y 1).val < 256 := (y 1).isLt
    -- the block is not cut at the array's end: what is written back is what the row accumulator holds
    have hfl : (dats m 0 c).flushed 2 t y = (outsAt m c t.val t.isLt).1 (ix2 ⟨(y 0).val, hy0⟩ ⟨(y 1).val, hy1⟩) := by
      show ((dats m 0 c).after 2 t) ((cfg0.win 2).xinj (grid0.coords t) y) = _
      rw [after2]
      refine congrArg _ ?_
      funext a; apply Fin.ext
      match a with
      | ⟨0, _⟩ => rfl
      | ⟨1, _⟩ => rfl
    rw [cast_eq, hfl]
    -- entry (y 0, y 1) of the block sits at (y 0, 256 * (t / 16) + y 1) of the array
    refine RowMin_of m c _ _ ⟨(y 0).val, hy0⟩ ⟨256 * (t.val / 16) + (y 1).val, by omega⟩ ?_ ?_ (hrow t ht _ _ _ rfl)
    · show win0_2.index t (0 : Fin 2) * 8 + 1 * (y 0).val = (y 0).val; omega
    · show win0_2.index t (1 : Fin 2) * 256 + 1 * (y 1).val = 256 * (t.val / 16) + (y 1).val; omega
  case hcover =>
    -- row n of the array lies in the block written back after the last point of grid row n / 256
    intro i
    have hi0 : (i 0).val < 8 := (i 0).isLt
    have hi1 : (i 1).val < 4096 := (i 1).isLt
    let t : Fin cfg0.N := ⟨16 * ((i 1).val / 256) + 15, lt_of_lt_of_eq (by omega) (show cfg0.N = 256 from N_0).symm⟩
    have htv : t.val = 16 * ((i 1).val / 256) + 15 := rfl
    obtain ⟨e0, e1⟩ := idx2 t
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 256 ≤ (i 1).val ∧ (i 1).val < win0_2.index t (1 : Fin 2) * 256 + 256; omega

/-- The second result array after the run: at (b, j) the minimum over the whole first cloud of the expanded squared distances
    to point j of the second. -/
theorem final3 (c : Dev nD)
    (hcol : ∀ (t : Fin cfg0.N), t.val = 255 → ∀ (b : Fin 8) (j : Fin 4096),
      MinOver (fun _ : Fin 4096 => True) (fun i => dist (cloud0 m c) (cloud1 m c) b i j) ((outsAt m c t.val t.isLt).2 (ix2 b j)))
    (b : Fin 8) (j : Fin 4096) :
    MinOver (fun _ : Fin 4096 => True) (fun i => dist (cloud0 m c) (cloud1 m c) b i j)
      ((dats m 0 c).arrAt 3 cfg0.N (ix2 b j)) := by
  have h := (dats m 0 c).arrAt_forall_of_cover 3 (ColMin m c) ?hP ?hcover (ix2 b j)
  · exact h
  case hP =>
    -- the one write-back, after the last point: every entry has the property
    intro t hf y
    have ht := (flush0_3 t).mp hf
    have hN : t.val < 256 := lt_of_lt_of_eq t.isLt (show cfg0.N = 256 from N_0)
    have ht' : t.val = 255 := by omega
    obtain ⟨e0, e1⟩ := idx3 t
    have hy0 : (y 0).val < 8 := (y 0).isLt
    have hy1 : (y 1).val < 4096 := (y 1).isLt
    -- the block is the whole array: what is written back is what the column accumulator holds
    have hfl : (dats m 0 c).flushed 3 t y = (outsAt m c t.val t.isLt).2 (ix2 ⟨(y 0).val, hy0⟩ ⟨(y 1).val, hy1⟩) := by
      show ((dats m 0 c).after 3 t) ((cfg0.win 3).xinj (grid0.coords t) y) = _
      rw [after3]
      refine congrArg _ ?_
      funext a; apply Fin.ext
      match a with
      | ⟨0, _⟩ => rfl
      | ⟨1, _⟩ => rfl
    rw [cast_eq, hfl]
    -- entry (y 0, y 1) of the block sits at (y 0, y 1) of the array
    refine ColMin_of m c _ _ ⟨(y 0).val, hy0⟩ ⟨(y 1).val, hy1⟩ ?_ ?_ (hcol t ht' _ _)
    · show win0_3.index t (0 : Fin 2) * 8 + 1 * (y 0).val = (y 0).val; omega
    · show win0_3.index t (1 : Fin 2) * 4096 + 1 * (y 1).val = (y 1).val; omega
  case hcover =>
    -- the last point's block is the whole array
    intro i
    have hi0 : (i 0).val < 8 := (i 0).isLt
    have hi1 : (i 1).val < 4096 := (i 1).isLt
    let t : Fin cfg0.N := ⟨255, lt_of_lt_of_eq (by omega) (show cfg0.N = 256 from N_0).symm⟩
    have htv : t.val = 255 := rfl
    obtain ⟨e0, e1⟩ := idx3 t
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t (0 : Fin 2) * 8 ≤ (i 0).val ∧ (i 0).val < win0_3.index t (0 : Fin 2) * 8 + 8; omega
    | ⟨1, _⟩ => show win0_3.index t (1 : Fin 2) * 4096 ≤ (i 1).val ∧ (i 1).val < win0_3.index t (1 : Fin 2) * 4096 + 4096; omega

end Cert.Chamfer

end
-- ==== Proof.Inv.lean ====
/-
  What the two accumulators hold after every point of the grid, by induction along the points.

  After point t = 16 * ni + mi the row accumulator holds, at (b, r), the minimum of the bound and of the expanded squared
  distances from point 256 * ni + r of the first cloud to the points of the second cloud seen so far in this grid row, those
  numbered below 256 * (mi + 1).  The column accumulator holds, at (b, j), the minimum over the points of the first cloud seen
  so far against point j of the second: those below 256 * (ni + 1) if column j's slice has been visited in this grid row
  (j < 256 * (mi + 1)), those below 256 * ni otherwise.
-/
import proofs.«118449_j68272800137445_1_alg».proof.Proof.Blocks

set_option maxRecDepth 16384

noncomputable section

namespace Cert.Chamfer

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The two components of a pair given as equal to an explicit pair. -/
private theorem pair_split {α β : Type} {p : α × β} {a : α} {b : β} (e : p = (a, b)) : p.1 = a ∧ p.2 = b := by
  subst e
  exact ⟨rfl, rfl⟩

/-- The grid has 256 points. -/
private theorem N_val : cfg0.N = 256 := N_0

/-- The minimum of row r of the tile of point t is the minimum, over the columns j of the point's slice, of the
    distances from the point i of the first cloud that row r stands for. -/
private theorem tile_row (c : Dev nD) (t : Fin cfg0.N) (b : Fin 8) (r : Fin 256) (i : Fin 4096)
    (hi : i.val = 256 * (t.val / 16) + r.val) :
    MinOver (fun j : Fin 4096 => 256 * (t.val % 16) ≤ j.val ∧ j.val < 256 * (t.val % 16) + 256)
      (fun j => dist (cloud0 m c) (cloud1 m c) b i j)
      ((Finset.univ : Finset (Fin 256)).fold min bound fun s => tile (blk0 m c t) (blk1 m c t) b r s) := by
  refine MinOver.map (fun s : Fin 256 => (⟨256 * (t.val % 16) + s.val, by omega⟩ : Fin 4096)) _
    (MinOver.fold _) (fun s => tile_blk m c t b r s i _ hi rfl) (fun j => ⟨?_, ?_⟩)
  · rintro ⟨h1, h2⟩
    exact ⟨⟨j.val - 256 * (t.val % 16), by omega⟩, Fin.ext (by show 256 * (t.val % 16) + (j.val - 256 * (t.val % 16)) = j.val; omega)⟩
  · rintro ⟨s, rfl⟩
    exact ⟨Nat.le_add_right _ _, Nat.add_lt_add_left s.isLt _⟩

/-- The minimum of column s of the tile of point t is the minimum, over the rows i of the point's block of the first
    cloud, of the distances to the point j of the second cloud that column s stands for. -/
private theorem tile_col (c : Dev nD) (t : Fin cfg0.N) (b : Fin 8) (s : Fin 256) (j : Fin 4096)
    (hj : j.val = 256 * (t.val % 16) + s.val) :
    MinOver (fun i : Fin 4096 => 256 * (t.val / 16) ≤ i.val ∧ i.val < 256 * (t.val / 16) + 256)
      (fun i => dist (cloud0 m c) (cloud1 m c) b i j)
      ((Finset.univ : Finset (Fin 256)).fold min bound fun r => tile (blk0 m c t) (blk1 m c t) b r s) := by
  have ht : t.val < 256 := lt_of_lt_of_eq t.isLt N_val
  refine MinOver.map (fun r : Fin 256 => (⟨256 * (t.val / 16) + r.val, by omega⟩ : Fin 4096)) _
    (MinOver.fold _) (fun r => tile_blk m c t b r s _ j rfl hj) (fun i => ⟨?_, ?_⟩)
  · rintro ⟨h1, h2⟩
    exact ⟨⟨i.val - 256 * (t.val / 16), by omega⟩, Fin.ext (by show 256 * (t.val / 16) + (i.val - 256 * (t.val / 16)) = i.val; omega)⟩
  · rintro ⟨r, rfl⟩
    exact ⟨Nat.le_add_right _ _, Nat.add_lt_add_left r.isLt _⟩

/-- One point of the row accumulator: if the entry held the minimum over the columns before the point's slice, it now
    holds the minimum over the columns up to the end of the slice. -/
private theorem row_step (c : Dev nD) (t : Fin cfg0.N) (base : Vec Ideal S8x256 .f32) (b : Fin 8) (r : Fin 256)
    (i : Fin 4096) (hi : i.val = 256 * (t.val / 16) + r.val)
    (hbase : MinOver (fun j : Fin 4096 => j.val < 256 * (t.val % 16))
      (fun j => dist (cloud0 m c) (cloud1 m c) b i j) (base (ix2 b r))) :
    MinOver (fun j : Fin 4096 => j.val < 256 * (t.val % 16 + 1))
      (fun j => dist (cloud0 m c) (cloud1 m c) b i j) (new4 (blk0 m c t) (blk1 m c t) base (ix2 b r)) := by
  rw [new4_apply]
  refine (hbase.union (tile_row m c t b r i hi)).congr (fun j => ?_)
  constructor <;> intro h <;> omega

/-- One point of the column accumulator: a column of the point's slice gains the rows of the point's block of the
    first cloud, every other column keeps what it had. -/
private theorem col_step (c : Dev nD) (t : Fin cfg0.N) (base : Vec Ideal S8x4096 .f32) (b : Fin 8) (j : Fin 4096)
    (hbase : MinOver (fun i : Fin 4096 => i.val <
        (if j.val < 256 * (t.val % 16) then 256 * (t.val / 16 + 1) else 256 * (t.val / 16)))
      (fun i => dist (cloud0 m c) (cloud1 m c) b i j) (base (ix2 b j))) :
    MinOver (fun i : Fin 4096 => i.val <
        (if j.val < 256 * (t.val % 16 + 1) then 256 * (t.val / 16 + 1) else 256 * (t.val / 16)))
      (fun i => dist (cloud0 m c) (cloud1 m c) b i j)
      (new5 (grid0.coords t) (blk0 m c t) (blk1 m c t) base (ix2 b j)) := by
  by_cases h1 : j.val < 256 * (t.val % 16)
  · rw [new5_apply_out t _ _ _ b j (Or.inl h1)]
    refine hbase.congr (fun i => ?_)
    have h3 : j.val < 256 * (t.val % 16 + 1) := by omega
    simp only [if_pos h1, if_pos h3]
  · by_cases h2 : j.val < 256 * (t.val % 16) + 256
    · have hs : j.val - 256 * (t.val % 16) < 256 := by omega
      have hj : j.val = 256 * (t.val % 16) + (⟨j.val - 256 * (t.val % 16), hs⟩ : Fin 256).val := by
        show j.val = 256 * (t.val % 16) + (j.val - 256 * (t.val % 16)); omega
      rw [new5_apply_in t _ _ _ b ⟨j.val - 256 * (t.val % 16), hs⟩ j hj]
      refine (hbase.union (tile_col m c t b _ j hj)).congr (fun i => ?_)
      have h3 : j.val < 256 * (t.val % 16 + 1) := by omega
      simp only [if_neg h1, if_pos h3]
      constructor <;> intro h <;> omega
    · rw [new5_apply_out t _ _ _ b j (Or.inr (by omega))]
      refine hbase.congr (fun i => ?_)
      have h3 : ¬ j.val < 256 * (t.val % 16 + 1) := by omega
      simp only [if_neg h1, if_neg h3]

/-- The invariant of the two accumulators after position n. -/
theorem acc_inv (c : Dev nD) : ∀ (n : ℕ) (hn : n < cfg0.N),
    (∀ (b : Fin 8) (r : Fin 256) (i : Fin 4096), i.val = 256 * (n / 16) + r.val →
      MinOver (fun j : Fin 4096 => j.val < 256 * (n % 16 + 1)) (fun j => dist (cloud0 m c) (cloud1 m c) b i j)
        ((outsAt m c n hn).1 (ix2 b r)))
    ∧ (∀ (b : Fin 8) (j : Fin 4096),
      MinOver (fun i : Fin 4096 => i.val < (if j.val < 256 * (n % 16 + 1) then 256 * (n / 16 + 1) else 256 * (n / 16)))
        (fun i => dist (cloud0 m c) (cloud1 m c) b i j) ((outsAt m c n hn).2 (ix2 b j))) := by
  intro n
  induction n with
  | zero =>
    intro hn
    have e : outsAt m c 0 hn = _ := outsAt_first m c ⟨0, hn⟩ rfl
    obtain ⟨e1, e2⟩ := pair_split e
    refine ⟨fun b r i hi => ?_, fun b j => ?_⟩
    · rw [e1]
      refine row_step m c ⟨0, hn⟩ _ b r i hi ?_
      rw [pay4_apply]
      exact MinOver.empty _ (fun j hj => absurd hj (by simp))
    · rw [e2]
      refine col_step m c ⟨0, hn⟩ _ b j ?_
      rw [pay6_apply]
      exact MinOver.empty _ (fun i hi => absurd hi (by simp))
  | succ n ih =>
    intro hn
    have ihn := ih (Nat.lt_of_succ_lt hn)
    by_cases h0 : (n + 1) % 16 = 0
    · -- the first point of a later grid row
      have e : outsAt m c (n + 1) hn = _ := outsAt_rowStart m c ⟨n + 1, hn⟩ h0 (Nat.succ_ne_zero n)
      obtain ⟨e1, e2⟩ := pair_split e
      refine ⟨fun b r i hi => ?_, fun b j => ?_⟩
      · rw [e1]
        refine row_step m c ⟨n + 1, hn⟩ _ b r i hi ?_
        rw [pay4_apply]
        refine MinOver.empty _ (fun j hj => ?_)
        have hj' : j.val < 256 * ((n + 1) % 16) := hj
        omega
      · rw [e2]
        refine col_step m c ⟨n + 1, hn⟩ _ b j ?_
        refine (ihn.2 b j).congr (fun i => ?_)
        show (i.val < (if j.val < 256 * (n % 16 + 1) then 256 * (n / 16 + 1) else 256 * (n / 16)))
          ↔ (i.val < (if j.val < 256 * ((n + 1) % 16) then 256 * ((n + 1) / 16 + 1) else 256 * ((n + 1) / 16)))
        have hj := j.isLt
        have h3 : j.val < 256 * (n % 16 + 1) := by omega
        have h4 : ¬ j.val < 256 * ((n + 1) % 16) := by omega
        rw [if_pos h3, if_neg h4]
        constructor <;> intro h <;> omega
    · -- a point inside a grid row
      have e : outsAt m c (n + 1) hn = _ := outsAt_inner m c ⟨n + 1, hn⟩ h0
      obtain ⟨e1, e2⟩ := pair_split e
      refine ⟨fun b r i hi => ?_, fun b j => ?_⟩
      · rw [e1]
        refine row_step m c ⟨n + 1, hn⟩ _ b r i hi ?_
        have hi' : i.val = 256 * (n / 16) + r.val := by omega
        refine (ihn.1 b r i hi').congr (fun j => ?_)
        show j.val < 256 * (n % 16 + 1) ↔ j.val < 256 * ((n + 1) % 16)
        constructor <;> intro h <;> omega
      · rw [e2]
        refine col_step m c ⟨n + 1, hn⟩ _ b j ?_
        refine (ihn.2 b j).congr (fun i => ?_)
        show (i.val < (if j.val < 256 * (n % 16 + 1) then 256 * (n / 16 + 1) else 256 * (n / 16)))
          ↔ (i.val < (if j.val < 256 * ((n + 1) % 16) then 256 * ((n + 1) / 16 + 1) else 256 * ((n + 1) / 16)))
        have e3 : n % 16 + 1 = (n + 1) % 16 := by omega
        have e4 : n / 16 = (n + 1) / 16 := by omega
        rw [e3, e4]

/-- At the last point of a grid row the row accumulator holds the minimum over the whole second cloud. -/
theorem rowAcc_final (c : Dev nD) (t : Fin cfg0.N) (ht : t.val % 16 = 15) (b : Fin 8) (r : Fin 256) (i : Fin 4096)
    (hi : i.val = 256 * (t.val / 16) + r.val) :
    MinOver (fun _ : Fin 4096 => True) (fun j => dist (cloud0 m c) (cloud1 m c) b i j) ((outsAt m c t.val t.isLt).1 (ix2 b r)) := by
  refine ((acc_inv m c t.val t.isLt).1 b r i hi).congr (fun j => ⟨fun _ => trivial, fun _ => ?_⟩)
  show j.val < 256 * (t.val % 16 + 1)
  have hj := j.isLt
  omega

/-- At the last point the column accumulator holds the minimum over the whole first cloud. -/
theorem colAcc_final (c : Dev nD) (t : Fin cfg0.N) (ht : t.val = 255) (b : Fin 8) (j : Fin 4096) :
    MinOver (fun _ : Fin 4096 => True) (fun i => dist (cloud0 m c) (cloud1 m c) b i j) ((outsAt m c t.val t.isLt).2 (ix2 b j)) := by
  refine ((acc_inv m c t.val t.isLt).2 b j).congr (fun i => ⟨fun _ => trivial, fun _ => ?_⟩)
  show i.val < (if j.val < 256 * (t.val % 16 + 1) then 256 * (t.val / 16 + 1) else 256 * (t.val / 16))
  have hi := i.isLt
  have hj := j.isLt
  have h3 : j.val < 256 * (t.val % 16 + 1) := by omega
  rw [if_pos h3]
  omega

end Cert.Chamfer

end
-- ==== Proof.lean ====
/-
  The chamfer distance kernel against its reference, over the extended reals.

  Both programs take two clouds p, q of 4096 points in three coordinates, in 8 batches, expand the squared distance between
  point n of p and point m of q as |p_n|^2 + |q_m|^2 - 2 <p_n, q_m>, take the minimum of it over m for every n and over n for
  every m (each from +∞), average the two arrays of minima, add the averages and divide by eight.  The reference forms all
  4096 x 4096 distances at once.  The kernel walks a 16 x 16 grid of 256 x 256 tiles, row by row, keeping the running minimum
  along each row of tiles in an 8 x 256 block that is reset at the start of the row and written back at its end, and the running
  minimum down the columns in one 8 x 4096 block that is reset at the first tile and written back after the last.  A minimum
  over a family does not depend on how the family is split into tiles nor on the order the tiles are met, so the arrays of
  minima agree entry by entry (each is characterised by which numbers lie below it), and the chain of averaging operations that
  follows is the same text in both programs, applied to equal arrays.  No arithmetic law beyond the order's is used, so the
  precondition is never opened.

  The three frames: each program terminates without a fault and leaves its two argument arrays unchanged; for the kernel's
  two readings (word-level and idealized) by the same run of its body at every grid point, for the reference by its run as a
  sequence of host operations.  The idealization rewrote nothing, so there is nothing to preserve.
-/
import proofs.«118449_j68272800137445_1_alg».proof.Defs
import proofs.«118449_j68272800137445_1_alg».proof.Proof.Gen.Kernel
import proofs.«118449_j68272800137445_1_alg».proof.Proof.Gen.KernelIdeal
import proofs.«118449_j68272800137445_1_alg».proof.Proof.Gen.ReferenceIdeal
import proofs.«118449_j68272800137445_1_alg».proof.Proof.Gen.Pre_finite_inputs
import proofs.«118449_j68272800137445_1_alg».proof.Proof.Gen.ReferenceIdeal.Run
import proofs.«118449_j68272800137445_1_alg».proof.Proof.Gen.ReferenceIdeal.Read
import proofs.«118449_j68272800137445_1_alg».proof.Proof.BodyBits
import proofs.«118449_j68272800137445_1_alg».proof.Proof.Body
import proofs.«118449_j68272800137445_1_alg».proof.Proof.KernelValue
import proofs.«118449_j68272800137445_1_alg».proof.Proof.Final
import proofs.«118449_j68272800137445_1_alg».proof.Proof.Inv
import proofs.«118449_j68272800137445_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.Chamfer

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The array of row minima the kernel's pipeline leaves is the reference's first array of minima of the same clouds. -/
theorem rowMinima_eq (m : (ℓ : Loc Cert.KernelIdeal.nD Cert.KernelIdeal.τ Cert.KernelIdeal.sig) → Buf (Elt Ideal) ℓ) (c : Dev Cert.KernelIdeal.nD) :
    Cert.ReferenceIdeal.Read.val_main_v13 (F := Ideal) (cloud0 m c) (cloud1 m c)
      = (Cert.KernelIdeal.Hand.dats m 0 c).arrAt 2 Cert.KernelIdeal.cfg0.N := by
  funext i
  obtain ⟨b, n, rfl⟩ : ∃ (b : Fin 8) (n : Fin 4096), i = ix2 b n := ⟨i 0, i 1, eq_ix2 i⟩
  exact (ref_min1 (cloud0 m c) (cloud1 m c) b n).unique (final2 m c (rowAcc_final m c) b n)

/-- The array of column minima likewise. -/
theorem colMinima_eq (m : (ℓ : Loc Cert.KernelIdeal.nD Cert.KernelIdeal.τ Cert.KernelIdeal.sig) → Buf (Elt Ideal) ℓ) (c : Dev Cert.KernelIdeal.nD) :
    Cert.ReferenceIdeal.Read.val_main_v14 (F := Ideal) (cloud0 m c) (cloud1 m c)
      = (Cert.KernelIdeal.Hand.dats m 0 c).arrAt 3 Cert.KernelIdeal.cfg0.N := by
  funext i
  obtain ⟨b, j, rfl⟩ : ∃ (b : Fin 8) (j : Fin 4096), i = ix2 b j := ⟨i 0, i 1, eq_ix2 i⟩
  exact (ref_min2 (cloud0 m c) (cloud1 m c) b j).unique (final3 m c (colAcc_final m c) b j)

theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v22_eq, ref_result]
  exact congrArg₂ tail (rowMinima_eq m c) (colMinima_eq m c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
